-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S256x512 : Shape := ⟨2, ![256, 512]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S32x512x256 .f32) (main_arg1 : FVec F S256x512 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S32x512x256 : Shape := ⟨3, ![32, 512, 256]⟩
abbrev S256x512 : Shape := ⟨2, ![256, 512]⟩
abbrev S16384x256 : Shape := ⟨2, ![16384, 256]⟩
abbrev S16384x32 : Shape := ⟨2, ![16384, 32]⟩
abbrev S2048x256 : Shape := ⟨2, ![2048, 256]⟩
abbrev S2048x32 : Shape := ⟨2, ![2048, 32]⟩
abbrev S2048x512 : Shape := ⟨2, ![2048, 512]⟩
abbrev S2048x32x16 : Shape := ⟨3, ![2048, 32, 16]⟩
abbrev S2048x1x16 : Shape := ⟨3, ![2048, 1, 16]⟩
abbrev S2048x16 : Shape := ⟨2, ![2048, 16]⟩
abbrev S2048 : Shape := ⟨1, ![2048]⟩
abbrev S2048x1 : Shape := ⟨2, ![2048, 1]⟩
abbrev S32x512x32 : Shape := ⟨3, ![32, 512, 32]⟩
abbrev S32x512x288 : Shape := ⟨3, ![32, 512, 288]⟩

abbrev nBuf : Space → Nat
  | .hbm => 6
  | .vmem => 5
  | .smem => 0
  | _ => 0

abbrev bufTy : (tb : Table) → Fin (tcTables nBuf tb) → BufTy
  | .hbm, ⟨0, _⟩ => ⟨S32x512x256, .f32⟩
  | .hbm, ⟨1, _⟩ => ⟨S256x512, .f32⟩
  | .hbm, ⟨2, _⟩ => ⟨S16384x256, .f32⟩
  | .hbm, ⟨3, _⟩ => ⟨S16384x32, .f32⟩
  | .hbm, ⟨4, _⟩ => ⟨S32x512x32, .f32⟩
  | .hbm, ⟨5, _⟩ => ⟨S32x512x288, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S2048x32, .f32⟩
  | .local _ .vmem, ⟨4, _⟩ => ⟨S2048x32, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x256_S16384x256 : S32x512x256.ShapeCasts S16384x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S2048x512_S2048x32x16 : S2048x512.ShapeCasts S2048x32x16
  slices_S2048x32x16_o0_0_0_S2048x1x16 : S2048x32x16.Slices ![0, 0, 0] S2048x1x16
  broadcasts_S2048x1x16_S2048x32x16 : S2048x1x16.Broadcasts S2048x32x16
  reduces_S2048x32x16_S2048x16 : S2048x32x16.Reduces [1] S2048x16
  reduces_S2048x16_S2048 : S2048x16.Reduces [1] S2048
  shapeCasts_S2048_S2048x1 : S2048.ShapeCasts S2048x1
  slices_S2048x32x16_o0_1_0_S2048x1x16 : S2048x32x16.Slices ![0, 1, 0] S2048x1x16
  slices_S2048x32x16_o0_2_0_S2048x1x16 : S2048x32x16.Slices ![0, 2, 0] S2048x1x16
  slices_S2048x32x16_o0_3_0_S2048x1x16 : S2048x32x16.Slices ![0, 3, 0] S2048x1x16
  slices_S2048x32x16_o0_4_0_S2048x1x16 : S2048x32x16.Slices ![0, 4, 0] S2048x1x16
  slices_S2048x32x16_o0_5_0_S2048x1x16 : S2048x32x16.Slices ![0, 5, 0] S2048x1x16
  slices_S2048x32x16_o0_6_0_S2048x1x16 : S2048x32x16.Slices ![0, 6, 0] S2048x1x16
  slices_S2048x32x16_o0_7_0_S2048x1x16 : S2048x32x16.Slices ![0, 7, 0] S2048x1x16
  slices_S2048x32x16_o0_8_0_S2048x1x16 : S2048x32x16.Slices ![0, 8, 0] S2048x1x16
  slices_S2048x32x16_o0_9_0_S2048x1x16 : S2048x32x16.Slices ![0, 9, 0] S2048x1x16
  slices_S2048x32x16_o0_10_0_S2048x1x16 : S2048x32x16.Slices ![0, 10, 0] S2048x1x16
  slices_S2048x32x16_o0_11_0_S2048x1x16 : S2048x32x16.Slices ![0, 11, 0] S2048x1x16
  slices_S2048x32x16_o0_12_0_S2048x1x16 : S2048x32x16.Slices ![0, 12, 0] S2048x1x16
  slices_S2048x32x16_o0_13_0_S2048x1x16 : S2048x32x16.Slices ![0, 13, 0] S2048x1x16
  slices_S2048x32x16_o0_14_0_S2048x1x16 : S2048x32x16.Slices ![0, 14, 0] S2048x1x16
  slices_S2048x32x16_o0_15_0_S2048x1x16 : S2048x32x16.Slices ![0, 15, 0] S2048x1x16
  slices_S2048x32x16_o0_16_0_S2048x1x16 : S2048x32x16.Slices ![0, 16, 0] S2048x1x16
  slices_S2048x32x16_o0_17_0_S2048x1x16 : S2048x32x16.Slices ![0, 17, 0] S2048x1x16
  slices_S2048x32x16_o0_18_0_S2048x1x16 : S2048x32x16.Slices ![0, 18, 0] S2048x1x16
  slices_S2048x32x16_o0_19_0_S2048x1x16 : S2048x32x16.Slices ![0, 19, 0] S2048x1x16
  slices_S2048x32x16_o0_20_0_S2048x1x16 : S2048x32x16.Slices ![0, 20, 0] S2048x1x16
  slices_S2048x32x16_o0_21_0_S2048x1x16 : S2048x32x16.Slices ![0, 21, 0] S2048x1x16
  slices_S2048x32x16_o0_22_0_S2048x1x16 : S2048x32x16.Slices ![0, 22, 0] S2048x1x16
  slices_S2048x32x16_o0_23_0_S2048x1x16 : S2048x32x16.Slices ![0, 23, 0] S2048x1x16
  slices_S2048x32x16_o0_24_0_S2048x1x16 : S2048x32x16.Slices ![0, 24, 0] S2048x1x16
  slices_S2048x32x16_o0_25_0_S2048x1x16 : S2048x32x16.Slices ![0, 25, 0] S2048x1x16
  slices_S2048x32x16_o0_26_0_S2048x1x16 : S2048x32x16.Slices ![0, 26, 0] S2048x1x16
  slices_S2048x32x16_o0_27_0_S2048x1x16 : S2048x32x16.Slices ![0, 27, 0] S2048x1x16
  slices_S2048x32x16_o0_28_0_S2048x1x16 : S2048x32x16.Slices ![0, 28, 0] S2048x1x16
  slices_S2048x32x16_o0_29_0_S2048x1x16 : S2048x32x16.Slices ![0, 29, 0] S2048x1x16
  slices_S2048x32x16_o0_30_0_S2048x1x16 : S2048x32x16.Slices ![0, 30, 0] S2048x1x16
  slices_S2048x32x16_o0_31_0_S2048x1x16 : S2048x32x16.Slices ![0, 31, 0] S2048x1x16
  concatenates_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x32_d1 : Shape.Concatenates [S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1, S2048x1] S2048x32 1
  inb_S2048x32_S2048x32_0_0 : ∀ a, (![0, 0] : Fin 2 → Nat) a + S2048x32.size a ≤ S2048x32.size a
  h_S2048x32 : 0 < S2048x32.numel
  shapeCasts_S16384x32_S32x512x32 : S16384x32.ShapeCasts S32x512x32
  concatenates_S32x512x256_S32x512x32_S32x512x288_d2 : Shape.Concatenates [S32x512x256, S32x512x32] S32x512x288 2
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S256x512 : Shape := ⟨2, ![256, 512]⟩
abbrev S16384x256 : Shape := ⟨2, ![16384, 256]⟩
abbrev S16384x512 : Shape := ⟨2, ![16384, 512]⟩
abbrev S16384x32x16 : Shape := ⟨3, ![16384, 32, 16]⟩
abbrev S16384x1x32x16 : Shape := ⟨4, ![16384, 1, 32, 16]⟩
abbrev S16384x32x1x16 : Shape := ⟨4, ![16384, 32, 1, 16]⟩
abbrev S16384x32x32x16 : Shape := ⟨4, ![16384, 32, 32, 16]⟩
abbrev S_ : Shape := ⟨0, ![]⟩
abbrev S16384x32 : Shape := ⟨2, ![16384, 32]⟩
abbrev S32x512x32 : Shape := ⟨3, ![32, 512, 32]⟩
abbrev S32x512x288 : Shape := ⟨3, ![32, 512, 288]⟩

abbrev nBuf : Space → Nat
  | .hbm => 19
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S256x512, .f32⟩
  | .hbm, ⟨2, _⟩ => ⟨S16384x256, .f32⟩
  | .hbm, ⟨3, _⟩ => ⟨S16384x512, .f32⟩
  | .hbm, ⟨4, _⟩ => ⟨S16384x32x16, .f32⟩
  | .hbm, ⟨5, _⟩ => ⟨S16384x1x32x16, .f32⟩
  | .hbm, ⟨6, _⟩ => ⟨S16384x32x1x16, .f32⟩
  | .hbm, ⟨7, _⟩ => ⟨S16384x32x32x16, .f32⟩
  | .hbm, ⟨8, _⟩ => ⟨S16384x32x32x16, .f32⟩
  | .hbm, ⟨9, _⟩ => ⟨S16384x32x32x16, .f32⟩
  | .hbm, ⟨10, _⟩ => ⟨S16384x32x32x16, .f32⟩
  | .hbm, ⟨11, _⟩ => ⟨S_, .f32⟩
  | .hbm, ⟨12, _⟩ => ⟨S16384x32x16, .f32⟩
  | .hbm, ⟨13, _⟩ => ⟨S16384x32x16, .f32⟩
  | .hbm, ⟨14, _⟩ => ⟨S16384x32x16, .f32⟩
  | .hbm, ⟨15, _⟩ => ⟨S_, .f32⟩
  | .hbm, ⟨16, _⟩ => ⟨S16384x32, .f32⟩
  | .hbm, ⟨17, _⟩ => ⟨S32x512x32, .f32⟩
  | .hbm, ⟨18, _⟩ => ⟨S32x512x288, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S32x512x256_S16384x256 : S32x512x256.ShapeCasts S16384x256
  shapeCasts_S16384x512_S16384x32x16 : S16384x512.ShapeCasts S16384x32x16
  bcast_S16384x32x16_S16384x1x32x16_0_2_3 : S16384x32x16.BroadcastsInDim S16384x1x32x16 (![0, 2, 3] : Fin 3 → Fin S16384x1x32x16.rank)
  bcast_S16384x32x16_S16384x32x1x16_0_1_3 : S16384x32x16.BroadcastsInDim S16384x32x1x16 (![0, 1, 3] : Fin 3 → Fin S16384x32x1x16.rank)
  bcast_S16384x1x32x16_S16384x32x32x16_0_1_2_3 : S16384x1x32x16.BroadcastsInDim S16384x32x32x16 (![0, 1, 2, 3] : Fin 4 → Fin S16384x32x32x16.rank)
  bcast_S16384x32x1x16_S16384x32x32x16_0_1_2_3 : S16384x32x1x16.BroadcastsInDim S16384x32x32x16 (![0, 1, 2, 3] : Fin 4 → Fin S16384x32x32x16.rank)
  reducesTo_S16384x32x32x16_S16384x32x16_d2 : S16384x32x32x16.ReducesTo [2] S16384x32x16
  h_S_ : 0 < S_.numel
  reducesTo_S16384x32x16_S16384x32_d2 : S16384x32x16.ReducesTo [2] S16384x32
  shapeCasts_S16384x32_S32x512x32 : S16384x32.ShapeCasts S32x512x32
  concatenates_S32x512x256_S32x512x32_S32x512x288_d2 : Shape.Concatenates [S32x512x256, S32x512x32] S32x512x288 2
  dot_S16384x256_S256x512_S16384x512_1_0_0_1_n_n_wf : DotDims.WF S16384x256 S256x512 S16384x512 [1] [0] [0] [1] [] []

variable [Facts₀]

def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf

class Facts : Prop extends Facts₀ where

variable [Facts]
-- ==== Proof.Spec.lean ====
/-
  The mathematics both programs compute, stated once and over no program.

  A row `r ∈ ℝ̄^256` is projected by the table `T ∈ ℝ̄^{256×512}` onto 512 columns, read as 32 kernels of 16
  coordinates each: column `16·k + d` is coordinate `d` of kernel `k`. Feature `i` of the row is

      ∑_{d < 16} exp ( − ∑_{k < 32} | P(k,d) − P(i,d) | ),      P(k,d) = ∑_{f < 256} r_f · T_{f, 16k+d},

  the sum over coordinates of the exponential of minus the L1 distance, along the kernel axis, between kernel
  `i` and every kernel. Everything is read on the extended reals, where `|x| = max x (−x)`.
-/
import Idealize.ShloMosaic.PureOps.Ideal
import Idealize.ShloMosaic.PureOps.Ideal.Laws
import Idealize.ShloMosaic.Lib.ValueIdx

noncomputable section

namespace Cert.Feat

open Idealize.ShloMosaic Idealize.ShloMosaic.ValueIdx

/-- Column `16·k + d` of a 512-wide projection: coordinate `d` of kernel `k`. -/
def kd (k : Fin 32) (d : Fin 16) : Fin 512 :=
  ⟨k.val * 16 + d.val, by have := k.isLt; have := d.isLt; omega⟩

theorem kd_val (k : Fin 32) (d : Fin 16) : (kd k d).val = k.val * 16 + d.val := rfl

/-- One row's projection onto column `c` of the table: `∑_f r_f · T_{f,c}`. -/
def proj (row : Fin 256 → EReal) (T : (⟨2, ![256, 512]⟩ : Shape).Idx → EReal) (c : Fin 512) : EReal :=
  ∑ f : Fin 256, row f * T (ix2 f c)

/-- The L1 distance along the kernel axis between kernel `i` and all 32 kernels, at coordinate `d`. -/
def dist (row : Fin 256 → EReal) (T : (⟨2, ![256, 512]⟩ : Shape).Idx → EReal) (i : Fin 32) (d : Fin 16) : EReal :=
  ∑ k : Fin 32, max (proj row T (kd k d) - proj row T (kd i d)) (-(proj row T (kd k d) - proj row T (kd i d)))

/-- Feature `i` of one row: `∑_d exp (− dist i d)`. -/
def rowFeat (row : Fin 256 → EReal) (T : (⟨2, ![256, 512]⟩ : Shape).Idx → EReal) (i : Fin 32) : EReal :=
  ∑ d : Fin 16, Ideal.exp (-(dist row T i d))

/-- The feature array of all 16384 rows: entry `(n, i)` is feature `i` of row `n`. -/
def feats (X : (⟨2, ![16384, 256]⟩ : Shape).Idx → EReal) (T : (⟨2, ![256, 512]⟩ : Shape).Idx → EReal) :
    (⟨2, ![16384, 32]⟩ : Shape).Idx → EReal :=
  fun j => rowFeat (fun f => X (ix2 (j 0) f)) T (j 1)

end Cert.Feat

end
-- ==== Proof.Column.lean ====
/-
  One grid point of the kernel, as mathematics.

  At a point the body holds a block `x` of 2048 rows and the whole table `T`. It forms `M = x · T`
  (2048 × 512, read as 2048 × 32 × 16), and for each kernel index `i < 32` the column

      c_i[p] = ∑_{d<16} exp ( 0 − ∑_{k<32} | M[p,k,d] − M[p,i,d] | ),

  then stores the 32 columns side by side. The 32 columns are one expression in `i`; this module names it
  (`colOf`), shows that what the body stores is the concatenation of `colOf M i` over `i`, and reads that at an index.
-/
import proofs.«169777_j68582037782886_1_alg».proof.Proof.Gen.KernelIdeal.Frame
import proofs.«169777_j68582037782886_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Cols

open Idealize.ShloMosaic Idealize.ShloMosaic.ValueIdx
open Cert.KernelIdeal Cert.KernelIdeal.Gen

variable {F : FTy → Type} [FloatOps F]

/-- Kernel `i`'s 16 coordinates are a slice of the 2048 × 32 × 16 block, for every `i < 32`. -/
theorem slicesAt : ∀ i : Fin 32, S2048x32x16.Slices ![0, i.val, 0] S2048x1x16 := by decide

/-- Column `i` of a point's result, from the projected block `v6 = M`: slice kernel `i` out, lay it along the
    kernel axis, subtract, take absolute values, sum over the kernel axis, negate as `0 − ·`, exponentiate, sum over
    the 16 coordinates, and view the 2048 sums as a column. -/
def colOf (v6 : FVec F S2048x32x16 .f32) (i : Fin 32) : FVec F S2048x1 .f32 :=
  shapeCast S2048x1
    (multiReduction .add [1] S2048
      (exp (subf (broadcast S2048x16 (Scalar.ofBits .f32 0x00000000#32))
        (multiReduction .add [1] S2048x16
          (absf (subf v6 (broadcastTo S2048x32x16
            (extractStridedSlice S2048x1x16 ![0, i.val, 0] v6 (slicesAt i)) broadcasts_S2048x1x16_S2048x32x16)))
          0x00000000#32 reduces_S2048x32x16_S2048x16 (.inl rfl) rfl)))
      0x00000000#32 reduces_S2048x16_S2048 (.inl rfl) rfl)
    shapeCasts_S2048_S2048x1

/-- The 32 columns as the list the concatenation takes. -/
def cols (v6 : FVec F S2048x32x16 .f32) : List ((s : Shape) × (s.Idx → F .f32)) :=
  List.ofFn fun n : Fin 32 => (⟨S2048x1, colOf v6 n⟩ : (s : Shape) × (s.Idx → F .f32))

theorem cols_shapes (v6 : FVec F S2048x32x16 .f32) :
    Shape.Concatenates ((cols v6).map (·.1)) S2048x32 1 :=
  concatenates_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x32_d1

/-- What a point leaves in the output's buffer is the one whole-block store of the 32 columns of the projected
    block, side by side: the body's text, with its 32 unrolled columns recognised as `colOf` at `i = 0 … 31`. -/
theorem out_eq (x0 : Vec F S2048x256 .f32) (x1 : Vec F S256x512 .f32) :
    out0_2 x0 x1 = View.canon [⟨r0_2, concatenate S2048x32 1 (cols (k0_pay2 (View.ld x0 r0_0) (View.ld x1 r0_1))) (cols_shapes _)⟩] :=
  rfl

/-! ## The column at an index, on the extended reals -/

/-- Inserting coordinate `d` into row `p` of the 2048 sums names entry `(p, d)`. -/
theorem lift_row (p : Fin 2048) (d : Fin 16) :
    reduces_S2048x16_S2048.lift (ix1 p) d = (ix2 p d : S2048x16.Idx) :=
  funext fun a => Fin.ext (by match a with | ⟨0, _⟩ => rfl | ⟨1, _⟩ => rfl)

/-- Inserting kernel `k` into entry `(p, d)` names entry `(p, k, d)` of the block. -/
theorem lift_kernel (p : Fin 2048) (d : Fin 16) (k : Fin 32) :
    reduces_S2048x32x16_S2048x16.lift (ix2 p d) k = (ix3 p k d : S2048x32x16.Idx) :=
  funext fun a => Fin.ext (by match a with | ⟨0, _⟩ => rfl | ⟨1, _⟩ => rfl | ⟨2, _⟩ => rfl)

/-- Kernel `i`'s slice laid along the kernel axis reads, at `(p, k, d)`, the block at `(p, i, d)`. -/
theorem spread_apply (v6 : FVec Ideal S2048x32x16 .f32) (i : Fin 32) (p : Fin 2048) (k : Fin 32) (d : Fin 16) :
    broadcastTo S2048x32x16 (extractStridedSlice S2048x1x16 ![0, i.val, 0] v6 (slicesAt i)) broadcasts_S2048x1x16_S2048x32x16
      (ix3 p k d) = v6 (ix3 p i d) := by
  refine (broadcastTo_apply _ broadcasts_S2048x1x16_S2048x32x16 (ix3 p k d) (ix3 p (0 : Fin 1) d : S2048x1x16.Idx) (fun a => ?_)).trans ?_
  · match a with
    | ⟨0, _⟩ => show p.val = if (2048 : Nat) = 1 then 0 else p.val; rw [if_neg (by decide)]
    | ⟨1, _⟩ => show 0 = if (1 : Nat) = 1 then 0 else k.val; rw [if_pos rfl]
    | ⟨2, _⟩ => show d.val = if (16 : Nat) = 1 then 0 else d.val; rw [if_neg (by decide)]
  · refine extractStridedSlice_apply _ v6 (slicesAt i) _ (ix3 p i d) (fun a => ?_)
    match a with
    | ⟨0, _⟩ => show p.val = 0 + p.val; omega
    | ⟨1, _⟩ => show i.val = i.val + 0; omega
    | ⟨2, _⟩ => show d.val = 0 + d.val; omega

/-- Column `i` at row `p`: `∑_d exp (− ∑_k |M[p,k,d] − M[p,i,d]|)`. -/
theorem colOf_apply (v6 : FVec Ideal S2048x32x16 .f32) (i : Fin 32) (p : Fin 2048) :
    colOf v6 i (ix2 p (0 : Fin 1)) =
      ∑ d : Fin 16, Ideal.exp (-(∑ k : Fin 32, max (v6 (ix3 p k d) - v6 (ix3 p i d)) (-(v6 (ix3 p k d) - v6 (ix3 p i d))))) := by
  unfold colOf
  refine (shapeCast_apply _ shapeCasts_S2048_S2048x1 (ix2 p (0 : Fin 1) : S2048x1.Idx) (ix1 p : S2048.Idx) ?_).trans ?_
  · rw [Shape.rowMajor_val_one, Shape.rowMajor_val_two]; show p.val = p.val * 1 + 0; omega
  refine (Ideal.multiReduction_add_single _ _ reduces_S2048x16_S2048 (.inl rfl) rfl (ix1 p)).trans ?_
  refine Finset.sum_congr rfl fun (d : Fin 16) _ => ?_
  rw [lift_row p d]
  show Ideal.exp (Ideal.ofBits .f32 0x00000000#32 - multiReduction (F := Ideal) (φ := .f32) .add [1] S2048x16 _ 0x00000000#32 reduces_S2048x32x16_S2048x16 (.inl rfl) rfl (ix2 p d)) = _
  rw [Ideal.ofBits_zero_f32, zero_sub]
  refine congrArg (fun s => Ideal.exp (-s))
    ((Ideal.multiReduction_add_single _ 0x00000000#32 reduces_S2048x32x16_S2048x16 (.inl rfl) rfl (ix2 p d)).trans
      (Finset.sum_congr rfl fun (k : Fin 32) _ => ?_))
  rw [lift_kernel p d k]
  exact congrArg (fun y => max (v6 (ix3 p k d) - y) (-(v6 (ix3 p k d) - y))) (spread_apply v6 i p k d)

/-! ## The projected block at an index

The body casts both operands to a narrower float format (the identity on the extended reals), multiplies them into a
zero accumulator, and views the 2048 × 512 product as 2048 × 32 × 16: entry `(p, k, d)` is entry `(p, 16k + d)` of
the product, the sum over the 256 contracted positions. -/

theorem lhs_dot_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_dot_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_dot_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_dot_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Entry `(p, k, d)` of the projected block: row `p` of the block against column `16k + d` of the table. -/
theorem proj_apply (v0 : Vec Ideal S2048x256 .f32) (v3 : Vec Ideal S256x512 .f32) (p : Fin 2048) (k : Fin 32) (d : Fin 16) :
    k0_pay2 v0 v3 (ix3 p k d) = ∑ f : Fin 256, v0 (ix2 p f) * v3 (ix2 f (Cert.Feat.kd k d)) := by
  unfold k0_pay2
  refine (shapeCast_apply _ shapeCasts_S2048x512_S2048x32x16 (ix3 p k d : S2048x32x16.Idx) (ix2 p (Cert.Feat.kd k d) : S2048x512.Idx) ?_).trans ?_
  · rw [Shape.rowMajor_val_two, Shape.rowMajor_val_three]
    have hp := p.isLt; have hk := k.isLt; have hd := d.isLt
    show p.val * 512 + (k.val * 16 + d.val) = (p.val * 32 + k.val) * 16 + d.val
    omega
  refine (Ideal.matmul_constant_zero_apply dot_S2048x256_S256x512_S2048x512_1_0_0_1_n_n none _ _ (ix2 p (Cert.Feat.kd k d) : S2048x512.Idx)).trans ?_
  rw [← Equiv.sum_comp (contrEquiv1 dot_S2048x256_S256x512_S2048x512_1_0_0_1_n_n 256 rfl rfl).symm]
  refine Finset.sum_congr rfl fun f _ => ?_
  have hk := contrEquiv1_symm_val dot_S2048x256_S256x512_S2048x512_1_0_0_1_n_n 256 rfl rfl f
  have el : dot_S2048x256_S256x512_S2048x512_1_0_0_1_n_n.lhsIdx (ix2 p (Cert.Feat.kd k d) : S2048x512.Idx) ((contrEquiv1 dot_S2048x256_S256x512_S2048x512_1_0_0_1_n_n 256 rfl rfl).symm f) = (ix2 p f : S2048x256.Idx) := funext fun a => Fin.ext (by
    match a with
    | ⟨0, _⟩ => exact lhs_dot_0 _ _
    | ⟨1, _⟩ => exact (lhs_dot_1 _ _).trans hk)
  have er : dot_S2048x256_S256x512_S2048x512_1_0_0_1_n_n.rhsIdx (ix2 p (Cert.Feat.kd k d) : S2048x512.Idx) ((contrEquiv1 dot_S2048x256_S256x512_S2048x512_1_0_0_1_n_n 256 rfl rfl).symm f) = (ix2 f (Cert.Feat.kd k d) : S256x512.Idx) := funext fun a => Fin.ext (by
    match a with
    | ⟨0, _⟩ => exact (rhs_dot_0 _ _).trans hk
    | ⟨1, _⟩ => exact rhs_dot_1 _ _)
  rw [el, er]
  show shapeCast S2048x256 v0 shapeCasts_S2048x256_S2048x256 (ix2 p f) * v3 (ix2 f (Cert.Feat.kd k d)) = _
  rw [shapeCast_self]

/-! ## A whole point -/

theorem hz : (![0, 0] : Fin 2 → Nat) = fun _ => 0 := funext fun a => by fin_cases a <;> rfl

/-- What a point leaves in the output's buffer, at `(p, i)`: feature `i` of row `p` of the point's block. -/
theorem block_apply (x0 : Vec Ideal S2048x256 .f32) (x1 : Vec Ideal S256x512 .f32) (p : Fin 2048) (i : Fin 32) :
    out0_2 x0 x1 (ix2 p i) = Cert.Feat.rowFeat (fun f => x0 (ix2 p f)) x1 i := by
  rw [out_eq, View.canon_unit_zero hz]
  simp only [View.ld_unit_zero (S := S2048x256) hz, View.ld_unit_zero (S := S256x512) hz]
  refine (concatenate_ofFn_unit_apply (1 : Fin S2048x32.rank) (fun n : Fin 32 => colOf (k0_pay2 x0 x1) n) (cols_shapes _) rfl rfl
    (ix2 p i : S2048x32.Idx) i rfl (ix2 p (0 : Fin 1) : S2048x1.Idx) (fun b hb => ?_)).trans ?_
  · match b with
    | ⟨0, _⟩ => rfl
    | ⟨1, _⟩ => exact absurd rfl hb
  rw [colOf_apply]
  unfold Cert.Feat.rowFeat Cert.Feat.dist Cert.Feat.proj
  simp only [proj_apply]

end Cert.KernelIdeal.Cols

end
-- ==== Proof.KernelValue.lean ====
/-
  The kernel's result array, as one function of the arguments.

  The region runs 8 points; point `t` holds rows `2048·t … 2048·t + 2047` of the reshaped input and the whole table,
  and writes rows `2048·t …` of the 16384 × 32 feature array. A row's features depend on that row and the table only,
  so what point `t` writes is block `t` of ONE array, the specification's feature array of the reshaped input; the 8
  blocks tile it. The lines after the region reshape it to 32 × 512 × 32 and append it to the input along the last axis.
-/
import proofs.«169777_j68582037782886_1_alg».proof.Proof.Gen.KernelIdeal.Frame
import proofs.«169777_j68582037782886_1_alg».proof.Proof.Column
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The input window's block and the table's block at a point, and the two arrays the region finds, at their literal types. -/
abbrev xblk (c : Dev nD) (t : Fin cfg0.N) : Vec Ideal S2048x256 .f32 := iblk m c 0 t
abbrev tblk (c : Dev nD) (t : Fin cfg0.N) : Vec Ideal S256x512 .f32 := iblk m c 1 t
abbrev xarr (c : Dev nD) : S16384x256.Idx → EReal := V m c main_v0
abbrev tarr (c : Dev nD) : S256x512.Idx → EReal := V m c main_arg1

/-- The index maps over the grid: the input and the output move one block of rows per point, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Row `p` of point `t`'s block is row `2048·t + p` of the array. -/
def rowAt (t : Fin cfg0.N) (p : Fin 2048) : Fin 16384 := ⟨t.val * 2048 + p.val, by
  have h : t.val < 8 := Nat.lt_of_lt_of_eq t.isLt N_0
  have := p.isLt; omega⟩

theorem xblk_apply (c : Dev nD) (t : Fin cfg0.N) (p : Fin 2048) (f : Fin 256) :
    xblk m c t (ix2 p f) = xarr m c (ix2 (rowAt t p) f) := by
  obtain ⟨e0, e1, -, -, -, -⟩ := idx_facts t
  show V m c main_v0 (((cfg0.win 0).blk t).view.emb (ix2 p f)) = V m c main_v0 (ix2 (rowAt t p) f)
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 256 + 1 * f.val = f.val; rw [e1]; omega

/-- The table's one block is the table. -/
theorem tblk_eq (c : Dev nD) (t : Fin cfg0.N) : tblk m c t = tarr m c := by
  obtain ⟨-, -, e2, e3, -, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; rw [e2]; omega
  | ⟨1, _⟩ => show win0_1.index t (1 : Fin 2) * 512 + 1 * (y 1).val = (y 1).val; rw [e3]; omega

/-- WHAT POINT `t` WRITES BACK is block `t` of the feature array of the reshaped input and the table. -/
theorem flushed_eq (c : Dev nD) (t : Fin cfg0.N) :
    (dats m 0 c).flushed 2 t = ((cfg0.win 2).blk t).view.read (Elt Ideal) (Cert.Feat.feats (xarr m c) (tarr m c)) := by
  show (cfg0.win 2).cut (grid0.coords t) ((dats m 0 c).after 2 t) = _
  rw [after0_2]
  obtain ⟨-, -, -, -, e4, e5⟩ := idx_facts t
  funext j
  obtain ⟨p, i, rfl⟩ : ∃ (p : Fin 2048) (i : Fin 32), j = ix2 p i := ⟨j 0, j 1, eq_ix2 j⟩
  show out0_2 (xblk m c t) (tblk m c t) (ix2 p i) = Cert.Feat.feats (xarr m c) (tarr m c) (((cfg0.win 2).blk t).view.emb (ix2 p i))
  have hE : ((cfg0.win 2).blk t).view.emb (ix2 p i) = (ix2 (rowAt t p) i : S16384x32.Idx) := funext fun a => Fin.ext (by
    match a with
    | ⟨0, _⟩ => show win0_2.index t (0 : Fin 2) * 2048 + 1 * p.val = t.val * 2048 + p.val; rw [e4]; omega
    | ⟨1, _⟩ => show win0_2.index t (1 : Fin 2) * 32 + 1 * i.val = i.val; rw [e5]; omega)
  rw [hE]
  refine (Cols.block_apply (xblk m c t) (tblk m c t) p i).trans ?_
  show _ = Cert.Feat.rowFeat (fun f => xarr m c (ix2 (rowAt t p) f)) (tarr m c) i
  rw [tblk_eq]
  exact congrArg (fun r => Cert.Feat.rowFeat r (tarr m c) i) (funext fun f => xblk_apply m c t p f)

/-- An index of the feature array is in point `t`'s block iff each coordinate is in the block's range. -/
theorem mem_blk (t : Fin cfg0.N) (i : S16384x32.Idx) :
    i ∈ ((cfg0.win 2).blk t).view.set ↔ ∀ a : Fin 2, win0_2.index t a * S2048x32.size a ≤ (i a).val ∧ (i a).val < win0_2.index t a * S2048x32.size a + S2048x32.size a := by
  show i ∈ ((View.whole main_v1).slice (win0_2.rect t)).set ↔ _
  rw [View.set_slice_whole, Rect.mem_set_unit]
  exact Iff.rfl

/-- The 8 blocks tile the array: row `r` is in the block of point `r / 2048`. -/
theorem cover (i : S16384x32.Idx) : ∃ t : Fin cfg0.N, (cfg0.win 2).flush t = true ∧ i ∈ ((cfg0.win 2).blk t).view.set := by
  have h0 : (i 0).val < 16384 := (i 0).isLt
  have h1 : (i 1).val < 32 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 32 ≤ (i 1).val ∧ (i 1).val < win0_2.index t (1 : Fin 2) * 32 + 32; rw [e5]; omega

/-- THE FEATURE ARRAY after the region. -/
theorem final (c : Dev nD) : (dats m 0 c).arrAt 2 cfg0.N = Cert.Feat.feats (xarr m c) (tarr m c) :=
  (dats m 0 c).arrAt_eq_of_cover 2 (Cert.Feat.feats (xarr m c) (tarr m c)) (fun t _ => flushed_eq m c t) cover

/-- The reshaped input the region finds is the reshape of the argument. -/
theorem xarr_eq (c : Dev nD) :
    xarr m c = shapeCast S16384x256 (m ((c : Thread nD τ).loc main_arg0)) shapeCasts_S32x512x256_S16384x256 := by
  show StableHlo.after hostOps0 (fun b => m (c, b)) (Proc.devRef .tc main_v0) = _
  after_results
  rfl

theorem tarr_eq (c : Dev nD) : tarr m c = m ((c : Thread nD τ).loc main_arg1) := V_main_arg1 m c

/-- The lines after the region: the feature array reshaped to 32 × 512 × 32 and appended to the input. -/
theorem tail_eq (c : Dev nD) :
    Pipeline.afterTail₀ cfgs (dats m) 0 (V0 m) [hostOps1] c main_v3
      = concatenate S32x512x288 2 [⟨S32x512x256, m ((c : Thread nD τ).loc main_arg0)⟩,
          ⟨S32x512x32, shapeCast S32x512x32 (Cert.Feat.feats (xarr m c) (tarr m c)) shapeCasts_S16384x32_S32x512x32⟩]
          concatenates_S32x512x256_S32x512x32_S32x512x288_d2 := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have hF : Pipeline.withArrays (cfgs 0).spec c (V0 m c) (fun w => (dats m 0 c).arrAt w (cfgs 0).N) (Proc.devRef .tc main_v1)
      = Cert.Feat.feats (xarr m c) (tarr m c) :=
    (Pipeline.withArrays_arr spec0 launch0.win.arr_inj c _ _ 2).trans (final m c)
  rw [hA, hF]
  rfl

/-- The kernel's result as a function of the arguments: the input, with the 32 features of each of its 16384 rows
    (the rows of its 32 × 512 leading axes, in order) appended along the last axis. -/
abbrev result (c : Dev nD) : S32x512x288.Idx → EReal :=
  concatenate S32x512x288 2 [⟨S32x512x256, m ((c : Thread nD τ).loc main_arg0)⟩,
      ⟨S32x512x32, shapeCast S32x512x32 (Cert.Feat.feats (shapeCast S16384x256 (m ((c : Thread nD τ).loc main_arg0)) shapeCasts_S32x512x256_S16384x256)
        (m ((c : Thread nD τ).loc main_arg1))) shapeCasts_S16384x32_S32x512x32⟩]
      concatenates_S32x512x256_S32x512x32_S32x512x288_d2

theorem tail_result (c : Dev nD) : Pipeline.afterTail₀ cfgs (dats m) 0 (V0 m) [hostOps1] c main_v3 = result m c := by
  rw [tail_eq, xarr_eq, tarr_eq]

/-- The run, read: every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's feature stage is the specification.

  The reference reshapes the input to 16384 rows of 256, multiplies by the table (512 columns), reads the product as
  32 kernels of 16 coordinates (flat column `16·k + d`), takes for each pair of kernels the absolute difference at each
  coordinate, sums it over the first kernel, negates, exponentiates, and sums over the coordinates. Read at one output
  index `(n, i)` this is `∑_d exp (− ∑_k |P(k,d) − P(i,d)|)` with `P(k,d) = ∑_f X(n,f) · T(f, 16k+d)`: feature `i` of
  row `n`. The only arithmetic is the reshape's: the flat position `(n·32 + k)·16 + d` of a `[16384,32,16]` index has
  row `n` and column `16·k + d` in `[16384,512]`.
-/
import proofs.«169777_j68582037782886_1_alg».proof.Proof.Gen.ReferenceIdeal.Read
import proofs.«169777_j68582037782886_1_alg».proof.Proof.Spec

noncomputable section

open Idealize.ShloMosaic Idealize.ShloMosaic.TcCoe Idealize.SL.Sem
open Cert.ReferenceIdeal Cert.ReferenceIdeal.Gen Cert.ReferenceIdeal.Read

namespace Cert.ReferenceIdeal.RefValue

open Idealize.ShloMosaic.ValueIdx Cert.Feat

/-- The row of the product that the reshaped index `(n, k, d)` reads, paired with a contraction position `f`, is
    position `(n, f)` of the reshaped input: `((n·32 + k)·16 + d) / 512 = n`. -/
theorem lidx_read (n : Fin 16384) (k : Fin 32) (d : Fin 16) (f : Fin 256) :
    lidx_main_v1 (idx_main_v2 (ix3 n k d)) f = ix2 n f :=
  funext fun a => Fin.ext (by
    match a with
    | ⟨0, _⟩ =>
      have hn := n.isLt; have hk := k.isLt; have hd := d.isLt
      show ((n.val * 32 + k.val) * 16 + d.val) / 512 = n.val
      omega
    | ⟨1, _⟩ => rfl)

/-- The column of the product that the reshaped index `(n, k, d)` reads is `16·k + d`:
    `((n·32 + k)·16 + d) % 512 = k·16 + d`. -/
theorem ridx_read (n : Fin 16384) (k : Fin 32) (d : Fin 16) (f : Fin 256) :
    ridx_main_v1 (idx_main_v2 (ix3 n k d)) f = ix2 f (kd k d) :=
  funext fun a => Fin.ext (by
    match a with
    | ⟨0, _⟩ => rfl
    | ⟨1, _⟩ =>
      have hn := n.isLt; have hk := k.isLt; have hd := d.isLt
      show ((n.val * 32 + k.val) * 16 + d.val) % 512 = k.val * 16 + d.val
      omega)

/-- The product read as `[16384, 32, 16]`: entry `(n, k, d)` is row `n`'s projection onto column `16·k + d`. -/
theorem v2_read (x0 : (⟨S32x512x256, .f32⟩ : BufTy).Contents (Elt Ideal)) (x1 : (⟨S256x512, .f32⟩ : BufTy).Contents (Elt Ideal))
    (n : Fin 16384) (k : Fin 32) (d : Fin 16) :
    val_main_v2 (F := Ideal) x0 x1 (ix3 n k d)
      = proj (fun f => val_main_v0 (F := Ideal) x0 (ix2 n f)) x1 (kd k d) := by
  rw [val_main_v2_apply, val_main_v1_apply]
  unfold proj
  refine Finset.sum_congr rfl fun f _ => ?_
  rw [lidx_read, ridx_read]

/-- The two broadcasts of the product met inside the pairwise difference at `(n, i, k, d)`: the minuend reads kernel
    `k` … -/
theorem v5_read (x0 : (⟨S32x512x256, .f32⟩ : BufTy).Contents (Elt Ideal)) (x1 : (⟨S256x512, .f32⟩ : BufTy).Contents (Elt Ideal))
    (n : Fin 16384) (i : Fin 32) (d : Fin 16) (k : Fin 32) :
    val_main_v5 (F := Ideal) x0 x1 (idx_main_v9 (idx_main_v12 (ix2 n i) d) k)
      = val_main_v2 (F := Ideal) x0 x1 (ix3 n k d) := by
  rw [val_main_v5_apply, val_main_v3_apply]
  exact congrArg _ (funext fun a => Fin.ext (by
    match a with
    | ⟨0, _⟩ => rfl
    | ⟨1, _⟩ => rfl
    | ⟨2, _⟩ => rfl))

/-- … and the subtrahend reads kernel `i`, the output's own. -/
theorem v6_read (x0 : (⟨S32x512x256, .f32⟩ : BufTy).Contents (Elt Ideal)) (x1 : (⟨S256x512, .f32⟩ : BufTy).Contents (Elt Ideal))
    (n : Fin 16384) (i : Fin 32) (d : Fin 16) (k : Fin 32) :
    val_main_v6 (F := Ideal) x0 x1 (idx_main_v9 (idx_main_v12 (ix2 n i) d) k)
      = val_main_v2 (F := Ideal) x0 x1 (ix3 n i d) := by
  rw [val_main_v6_apply, val_main_v4_apply]
  exact congrArg _ (funext fun a => Fin.ext (by
    match a with
    | ⟨0, _⟩ => rfl
    | ⟨1, _⟩ => rfl
    | ⟨2, _⟩ => rfl))

/-- The reference's feature stage is the specification's feature array of the reshaped input and the table. -/
theorem feats_eq (x0 : (⟨S32x512x256, .f32⟩ : BufTy).Contents (Elt Ideal)) (x1 : (⟨S256x512, .f32⟩ : BufTy).Contents (Elt Ideal)) :
    val_main_v12 (F := Ideal) x0 x1 = Cert.Feat.feats (val_main_v0 (F := Ideal) x0) x1 := by
  funext j
  obtain ⟨n, i, rfl⟩ : ∃ n i, j = ix2 n i := ⟨j 0, j 1, eq_ix2 j⟩
  show val_main_v12 (F := Ideal) x0 x1 (ix2 n i) = rowFeat (fun f => val_main_v0 (F := Ideal) x0 (ix2 n f)) x1 i
  rw [val_main_v12_apply, val_main_cst_0_apply, Ideal.ofBits_def, Ideal.ofBits_zero_f32, zero_add]
  unfold rowFeat
  refine Finset.sum_congr rfl fun d _ => ?_
  rw [val_main_v11_apply, val_main_v10_apply, val_main_v9_apply, val_main_cst_apply, Ideal.ofBits_def, Ideal.ofBits_zero_f32, zero_add,
    Ideal.hostUnary_exp_def, Ideal.hostNegf_def, Ideal.negf_def]
  unfold Cert.Feat.dist
  refine congrArg Ideal.exp (congrArg Neg.neg (Finset.sum_congr rfl fun k _ => ?_))
  rw [val_main_v8_apply, val_main_v7_apply, v5_read, v6_read, v2_read, v2_read,
    Ideal.hostAbsf_def, Ideal.absf_def, Ideal.subf_def]

end Cert.ReferenceIdeal.RefValue

end
-- ==== Proof.lean ====
/-
  The kernel computes, for an input `x` of 32 × 512 rows of 256 numbers and a table `T` of 256 × 512, the projection
  `M = x · T` of every row onto 512 columns read as 32 kernels of 16 coordinates, and for each row `n` and kernel `i`
  the feature `∑_d exp (− ∑_k |M[n,k,d] − M[n,i,d]|)`; its result is `x` with the 32 features of each row appended.
  The reference computes the same number from a four-axis array of all pairwise differences. On the extended reals the
  two agree term by term: the matrix unit's product into a zero accumulator and the host's product are one sum, a lane
  sum and a host sum are one sum, `0 − s` is `−s`, and both take `|·|`, `exp` and the same reshapes. No law used needs
  finiteness, so the precondition is never opened.

  The kernel side (what one grid point stores, that the 8 points' blocks are the blocks of one array, the lines after the
  region) is in Proof/Column.lean and Proof/KernelValue.lean; the reference's feature stage read at an index in
  Proof/RefValue.lean; the common specification in Proof/Spec.lean.
-/
import proofs.«169777_j68582037782886_1_alg».proof.Defs
import proofs.«169777_j68582037782886_1_alg».proof.Proof.Gen.Kernel
import proofs.«169777_j68582037782886_1_alg».proof.Proof.Gen.Kernel.Skeleton
import proofs.«169777_j68582037782886_1_alg».proof.Proof.Gen.Kernel.Launch
import proofs.«169777_j68582037782886_1_alg».proof.Proof.Gen.Kernel.Points
import proofs.«169777_j68582037782886_1_alg».proof.Proof.Gen.Kernel.Frame
import proofs.«169777_j68582037782886_1_alg».proof.Proof.Gen.KernelIdeal
import proofs.«169777_j68582037782886_1_alg».proof.Proof.Gen.KernelIdeal.Skeleton
import proofs.«169777_j68582037782886_1_alg».proof.Proof.Gen.KernelIdeal.Launch
import proofs.«169777_j68582037782886_1_alg».proof.Proof.Gen.KernelIdeal.Points
import proofs.«169777_j68582037782886_1_alg».proof.Proof.Gen.KernelIdeal.Frame
import proofs.«169777_j68582037782886_1_alg».proof.Proof.Gen.ReferenceIdeal
import proofs.«169777_j68582037782886_1_alg».proof.Proof.Gen.ReferenceIdeal.Run
import proofs.«169777_j68582037782886_1_alg».proof.Proof.Gen.ReferenceIdeal.Read
import proofs.«169777_j68582037782886_1_alg».proof.Proof.Gen.Pre_finite_inputs
import proofs.«169777_j68582037782886_1_alg».proof.Proof.KernelValue
import proofs.«169777_j68582037782886_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the input with each row's 32 features appended: the kernel's run read
    through its 8 blocks, the reference's run read one stage at a time, over arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  unfold Cert.ReferenceIdeal.Read.val_main_v14 Cert.ReferenceIdeal.Read.val_main_v13
  rw [Cert.ReferenceIdeal.RefValue.feats_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
